-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x2 .f32) (main_arg10 : FVec F S2 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x16 .f32) (main_arg1 : IVec S2x1600000 32) (main_arg2 : IVec S100000 32) (main_arg3 : FVec F S16x128 .f32) (main_arg4 : FVec F S128 .f32) (main_arg5 : FVec F S16x128 .f32) (main_arg6 : FVec F S128x128 .f32) (main_arg7 : FVec F S128 .f32) (main_arg8 : FVec F S128x128 .f32) (main_arg9 : FVec F S128x2 .f32) (main_arg10 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1x128 : Shape := ⟨2, ![1, 128]⟩
abbrev S100000x128 : Shape := ⟨2, ![100000, 128]⟩
abbrev S2000x16 : Shape := ⟨2, ![2000, 16]⟩
abbrev S2000x128 : Shape := ⟨2, ![2000, 128]⟩
abbrev S1600000x128 : Shape := ⟨2, ![1600000, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S1x2 : Shape := ⟨2, ![1, 2]⟩
abbrev S2048x2 : Shape := ⟨2, ![2048, 2]⟩

abbrev nBuf : Space → Nat
  | .hbm => 58
  | .vmem => 23
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000, .i32⟩
  | .hbm, ⟨3, _⟩ => ⟨S16x128, .f32⟩
  | .hbm, ⟨4, _⟩ => ⟨S128, .f32⟩
  | .hbm, ⟨5, _⟩ => ⟨S16x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x16, .f32⟩
  | .hbm, ⟨24, _⟩ => ⟨S_, .f32⟩
  | .hbm, ⟨25, _⟩ => ⟨S100000x16, .f32⟩
  | .hbm, ⟨26, _⟩ => ⟨S1600000x1, .i32⟩
  | .hbm, ⟨27, _⟩ => ⟨S100000x16, .f32⟩
  | .hbm, ⟨28, _⟩ => ⟨S1x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .f32⟩
  | .hbm, ⟨46, _⟩ => ⟨S2048x128, .f32⟩
  | .hbm, ⟨47, _⟩ => ⟨S100000x1, .i32⟩
  | .hbm, ⟨48, _⟩ => ⟨S2048x128, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S2048, .f32⟩
  | .hbm, ⟨53, _⟩ => ⟨S100000x1, .i32⟩
  | .hbm, ⟨54, _⟩ => ⟨S2048, .f32⟩
  | .hbm, ⟨55, _⟩ => ⟨S2048x1, .f32⟩
  | .hbm, ⟨56, _⟩ => ⟨S1x2, .f32⟩
  | .hbm, ⟨57, _⟩ => ⟨S2048x2, .f32⟩
  | .local _ .vmem, ⟨0, _⟩ => ⟨S2000x16, .f32⟩
  | .local _ .vmem, ⟨1, _⟩ => ⟨S2000x16, .f32⟩
  | .local _ .vmem, ⟨2, _⟩ => ⟨S2000x16, .f32⟩
  | .local _ .vmem, ⟨3, _⟩ => ⟨S2000x16, .f32⟩
  | .local _ .vmem, ⟨4, _⟩ => ⟨S16x128, .f32⟩
  | .local _ .vmem, ⟨5, _⟩ => ⟨S1x128, .f32⟩
  | .local _ .vmem, ⟨6, _⟩ => ⟨S16x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2048x128, .f32⟩
  | .local _ .vmem, ⟨19, _⟩ => ⟨S2048x1, .f32⟩
  | .local _ .vmem, ⟨20, _⟩ => ⟨S128x2, .f32⟩
  | .local _ .vmem, ⟨21, _⟩ => ⟨S1x2, .f32⟩
  | .local _ .vmem, ⟨22, _⟩ => ⟨S2048x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  shapeCasts_S128_S1x128 : S128.ShapeCasts S1x128
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  shapeCasts_S2048_S2048x1 : S2048.ShapeCasts S2048x1
  shapeCasts_S2_S1x2 : S2.ShapeCasts S1x2
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S2000x16_S16x128_S2000x128_1_0_0_1_n_n_wf : DotDims.WF S2000x16 S16x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S2048x1.size a
  hwx2_1 : ∀ i : grid2.Coords, EltTy.bits .f32 = 32 ∨ (Rect.block (s := S2048x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2.size a ≤ S2048x2.size a
  hwx2_4 : ∀ i : grid2.Coords, EltTy.bits .f32 = 32 ∨ (Rect.block (s := S2048x2) S2048x2.size (cc2_transform_4 i) (hinb2_4 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v13) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2048x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S2048x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩

abbrev nBuf : Space → Nat
  | .hbm => 79
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000, .i32⟩
  | .hbm, ⟨3, _⟩ => ⟨S16x128, .f32⟩
  | .hbm, ⟨4, _⟩ => ⟨S128, .f32⟩
  | .hbm, ⟨5, _⟩ => ⟨S16x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x16, .f32⟩
  | .hbm, ⟨24, _⟩ => ⟨S_, .f32⟩
  | .hbm, ⟨25, _⟩ => ⟨S100000x16, .f32⟩
  | .hbm, ⟨26, _⟩ => ⟨S1600000x1, .i32⟩
  | .hbm, ⟨27, _⟩ => ⟨S100000x16, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S2048x128, .f32⟩
  | .hbm, ⟨61, _⟩ => ⟨S100000x1, .i32⟩
  | .hbm, ⟨62, _⟩ => ⟨S2048x128, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S2048, .f32⟩
  | .hbm, ⟨67, _⟩ => ⟨S100000x1, .i32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048x1, .f32⟩
  | .hbm, ⟨73, _⟩ => ⟨S2048x128, .f32⟩
  | .hbm, ⟨74, _⟩ => ⟨S2048x128, .f32⟩
  | .hbm, ⟨75, _⟩ => ⟨S2048x2, .f32⟩
  | .hbm, ⟨76, _⟩ => ⟨S1x2, .f32⟩
  | .hbm, ⟨77, _⟩ => ⟨S2048x2, .f32⟩
  | .hbm, ⟨78, _⟩ => ⟨S2048x2, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x128_S100000x128_1_0_0_1_n_n_wf : DotDims.WF S100000x16 S16x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x2_S2048x2_1_0_0_1_n_n_wf : DotDims.WF S2048x128 S128x2 S2048x2 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.LibDot.lean ====
/-
  A plain matrix product read at an index. For the dimension numbers of an `M×K` by `K×N` product (the left
  operand's axis 1 contracted with the right operand's axis 0, no batch axis: `DotDims.plain M K N`), at the exact
  extended reals an entry `(p, q)` of a `tpu.matmul` into the zero accumulator, and of the host's `dot_general`, is the
  sum over `k : Fin K` of `l (p, k) * r (k, q)`: the contraction's one-axis index set is re-indexed by its coordinate,
  and the operand indices at `(p, q)` and `k` are `(p, k)` and `(k, q)`. Stated for every extent and operand format.
-/
import Idealize.ShloMosaic.Lib.ValueIdx
import Idealize.ShloMosaic.PureOps.Ideal.Laws

namespace Cert.LibDot

open Idealize.ShloMosaic Idealize.ShloMosaic.ValueIdx

variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum of a plain product at `(p, q)`, over the coordinate `k` of its one contracted axis. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- A `tpu.matmul` of a plain product into the zero accumulator, at `(p, q)`. -/
theorem matmul_plain_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) := by
  rw [Ideal.matmul_constant_zero_apply]
  exact plain_sum l r p q

/-- The host's `dot_general` of a plain product, at `(p, q)`, whatever the schedule key. -/
theorem dotGeneral_plain_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibDot
-- ==== Proof.Spec.lean ====
/-
  What the three kernel regions compute, each as ONE function of whole arrays over the extended reals.

  A dense graph-convolution layer on `n = 100000` nodes with `K` input and 128 output features: from the neighbour
  sums `agg`, the node features `x`, the two weight matrices and the bias row,
      out (p, q) = max (Σ_k agg (p, k) · wrel (k, q) + Σ_k x (p, k) · wroot (k, q) + b (0, q)) 0 .
  The mean-pool and classifier head on 2048 graphs: from the per-graph feature sums, the per-graph node counts (a column),
  the classifier matrix and its bias row,
      out (g, q) = Σ_k (sums (g, k) / max (cnt (g, 0)) 1) · wfc (k, q) + bfc (0, q) ,
  the quotient the extended reals' (`Ideal.div`), the literal one kept as its word.
-/
import Idealize.ShloMosaic.Lib.ValueIdx
import Idealize.ShloMosaic.PureOps.Ideal

noncomputable section

namespace Cert.Spec

open Idealize.ShloMosaic Idealize.ShloMosaic.ValueIdx

/-- An index of a rank-2 shape whose two coordinates are known is the index built from them. -/
theorem eq_ix2_of {n0 n1 : ℕ} (j : (⟨2, ![n0, n1]⟩ : Shape).Idx) (a : Fin n0) (b : Fin n1) (h0 : (j 0).val = a.val)
    (h1 : (j 1).val = b.val) : j = ix2 a b :=
  funext fun ax => Fin.ext (by
    match ax with
    | ⟨0, _⟩ => exact h0
    | ⟨1, _⟩ => exact h1)

/-- An index of a rank-1 shape whose coordinate is known is the index built from it. -/
theorem eq_ix1_of {n0 : ℕ} (j : (⟨1, ![n0]⟩ : Shape).Idx) (a : Fin n0) (h0 : (j 0).val = a.val) : j = ix1 a :=
  funext fun ax => Fin.ext (by
    match ax with
    | ⟨0, _⟩ => exact h0)

/-- One entry of a dense layer with `K` input features. -/
def denseAt {K : ℕ} (agg x : (⟨2, ![100000, K]⟩ : Shape).Idx → EReal) (wrel : (⟨2, ![K, 128]⟩ : Shape).Idx → EReal)
    (b : (⟨2, ![1, 128]⟩ : Shape).Idx → EReal) (wroot : (⟨2, ![K, 128]⟩ : Shape).Idx → EReal) (p : Fin 100000) (q : Fin 128) : EReal :=
  max ((∑ k : Fin K, agg (ix2 p k) * wrel (ix2 k q)) + (∑ k : Fin K, x (ix2 p k) * wroot (ix2 k q)) + b (ix2 (0 : Fin 1) q)) 0

/-- The first layer (16 input features), as an array. -/
def dense16 (agg x : (⟨2, ![100000, 16]⟩ : Shape).Idx → EReal) (wrel : (⟨2, ![16, 128]⟩ : Shape).Idx → EReal)
    (b : (⟨2, ![1, 128]⟩ : Shape).Idx → EReal) (wroot : (⟨2, ![16, 128]⟩ : Shape).Idx → EReal) : (⟨2, ![100000, 128]⟩ : Shape).Idx → EReal :=
  fun i => denseAt agg x wrel b wroot ⟨(i 0).val, (i 0).isLt⟩ ⟨(i 1).val, (i 1).isLt⟩

/-- The second layer (128 input features), as an array. -/
def dense128 (agg x : (⟨2, ![100000, 128]⟩ : Shape).Idx → EReal) (wrel : (⟨2, ![128, 128]⟩ : Shape).Idx → EReal)
    (b : (⟨2, ![1, 128]⟩ : Shape).Idx → EReal) (wroot : (⟨2, ![128, 128]⟩ : Shape).Idx → EReal) : (⟨2, ![100000, 128]⟩ : Shape).Idx → EReal :=
  fun i => denseAt agg x wrel b wroot ⟨(i 0).val, (i 0).isLt⟩ ⟨(i 1).val, (i 1).isLt⟩

/-- One entry of the pooled classifier head. -/
def headAt (sums : (⟨2, ![2048, 128]⟩ : Shape).Idx → EReal) (cnt : (⟨2, ![2048, 1]⟩ : Shape).Idx → EReal)
    (wfc : (⟨2, ![128, 2]⟩ : Shape).Idx → EReal) (bfc : (⟨2, ![1, 2]⟩ : Shape).Idx → EReal) (g : Fin 2048) (q : Fin 2) : EReal :=
  (∑ k : Fin 128, Ideal.div (sums (ix2 g k)) (max (cnt (ix2 g (0 : Fin 1))) (Ideal.ofBits .f32 0x3F800000#32)) * wfc (ix2 k q))
    + bfc (ix2 (0 : Fin 1) q)

/-- The pooled classifier head, as an array. -/
def head (sums : (⟨2, ![2048, 128]⟩ : Shape).Idx → EReal) (cnt : (⟨2, ![2048, 1]⟩ : Shape).Idx → EReal)
    (wfc : (⟨2, ![128, 2]⟩ : Shape).Idx → EReal) (bfc : (⟨2, ![1, 2]⟩ : Shape).Idx → EReal) : (⟨2, ![2048, 2]⟩ : Shape).Idx → EReal :=
  fun i => headAt sums cnt wfc bfc ⟨(i 0).val, (i 0).isLt⟩ ⟨(i 1).val, (i 1).isLt⟩

/-- A layer array read at an index whose coordinates are known. -/
theorem dense16_at (agg x : (⟨2, ![100000, 16]⟩ : Shape).Idx → EReal) (wrel : (⟨2, ![16, 128]⟩ : Shape).Idx → EReal)
    (b : (⟨2, ![1, 128]⟩ : Shape).Idx → EReal) (wroot : (⟨2, ![16, 128]⟩ : Shape).Idx → EReal) (i : (⟨2, ![100000, 128]⟩ : Shape).Idx)
    (p : Fin 100000) (q : Fin 128) (h0 : (i 0).val = p.val) (h1 : (i 1).val = q.val) :
    dense16 agg x wrel b wroot i = denseAt agg x wrel b wroot p q := by
  show denseAt agg x wrel b wroot ⟨(i 0).val, (i 0).isLt⟩ ⟨(i 1).val, (i 1).isLt⟩ = _
  rw [show (⟨(i 0).val, (i 0).isLt⟩ : Fin 100000) = p from Fin.ext h0, show (⟨(i 1).val, (i 1).isLt⟩ : Fin 128) = q from Fin.ext h1]

theorem dense128_at (agg x : (⟨2, ![100000, 128]⟩ : Shape).Idx → EReal) (wrel : (⟨2, ![128, 128]⟩ : Shape).Idx → EReal)
    (b : (⟨2, ![1, 128]⟩ : Shape).Idx → EReal) (wroot : (⟨2, ![128, 128]⟩ : Shape).Idx → EReal) (i : (⟨2, ![100000, 128]⟩ : Shape).Idx)
    (p : Fin 100000) (q : Fin 128) (h0 : (i 0).val = p.val) (h1 : (i 1).val = q.val) :
    dense128 agg x wrel b wroot i = denseAt agg x wrel b wroot p q := by
  show denseAt agg x wrel b wroot ⟨(i 0).val, (i 0).isLt⟩ ⟨(i 1).val, (i 1).isLt⟩ = _
  rw [show (⟨(i 0).val, (i 0).isLt⟩ : Fin 100000) = p from Fin.ext h0, show (⟨(i 1).val, (i 1).isLt⟩ : Fin 128) = q from Fin.ext h1]

theorem head_at (sums : (⟨2, ![2048, 128]⟩ : Shape).Idx → EReal) (cnt : (⟨2, ![2048, 1]⟩ : Shape).Idx → EReal)
    (wfc : (⟨2, ![128, 2]⟩ : Shape).Idx → EReal) (bfc : (⟨2, ![1, 2]⟩ : Shape).Idx → EReal) (i : (⟨2, ![2048, 2]⟩ : Shape).Idx)
    (g : Fin 2048) (q : Fin 2) (h0 : (i 0).val = g.val) (h1 : (i 1).val = q.val) :
    head sums cnt wfc bfc i = headAt sums cnt wfc bfc g q := by
  show headAt sums cnt wfc bfc ⟨(i 0).val, (i 0).isLt⟩ ⟨(i 1).val, (i 1).isLt⟩ = _
  rw [show (⟨(i 0).val, (i 0).isLt⟩ : Fin 2048) = g from Fin.ext h0, show (⟨(i 1).val, (i 1).isLt⟩ : Fin 2) = q from Fin.ext h1]

end Cert.Spec

end
-- ==== Proof.Dense0.lean ====
/-
  The first layer's dense half (region 0), as one function of whole arrays. The region walks 50 blocks of 2000 node rows;
  at a block it multiplies the block's rows of the neighbour sums and of the node features by the two 16×128 weight
  matrices, adds the products and the bias row, and clamps at zero. An entry (p, q) of a block is therefore
  max (Σ_k agg (p, k) · wrel (k, q) + Σ_k x (p, k) · wroot (k, q) + b (0, q)) 0 over the block's own rows, row p of block t
  being row 2000 · t + p of the arrays; the 50 blocks tile the 100000 rows, so the output array ends as
  `Spec.dense16` of the five arrays the region found on entry, whatever they are.
-/
import proofs.«103581_j47218870452627_1_alg».proof.Proof.Gen.KernelIdeal.Frame
import proofs.«103581_j47218870452627_1_alg».proof.Proof.LibDot
import proofs.«103581_j47218870452627_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Cert.KernelIdeal Cert.KernelIdeal.Gen Idealize.ShloMosaic Idealize.ShloMosaic.ValueIdx Idealize.ShloMosaic.TcCoe Idealize.SL.Sem
open Idealize.ShloMosaic.Pipeline (Dat Cfg Window)

theorem hz : (![0, 0] : Fin 2 → Nat) = fun _ => 0 := funext fun a => by fin_cases a <;> rfl

/-- The printed dimension numbers are the plain product's. -/
theorem dims_eq : dot_S2000x16_S16x128_S2000x128_1_0_0_1_n_n = DotDims.plain 2000 16 128 := rfl

/-- The body's value at an entry of its block, from the five blocks it loads. -/
theorem pay_apply (a x : Vec Ideal S2000x16 .f32) (wr wo : Vec Ideal S16x128 .f32) (b : Vec Ideal S1x128 .f32) (p : Fin 2000) (q : Fin 128) :
    k0_pay1 a x wr wo b (ix2 p q)
      = max ((∑ k : Fin 16, a (ix2 p k) * wr (ix2 k q)) + (∑ k : Fin 16, x (ix2 p k) * wo (ix2 k q)) + b (ix2 (0 : Fin 1) q)) 0 := by
  unfold k0_pay1
  rw [maximumf_apply, addf_apply, addf_apply]
  simp only [matmul, dims_eq]
  rw [LibDot.matmul_plain_apply, LibDot.matmul_plain_apply]
  simp only [truncf_apply, shapeCast_self, broadcast_apply, broadcastTo_1b_ab_apply, Ideal.ofBits_def, Ideal.ofBits_zero_f32]

/-- The index maps over the grid: the two row-blocked inputs and the output move to block `t` of the rows, the weights
    and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of block `t`. -/
abbrev row (t : Fin cfg0.N) (p : Fin 2000) : Fin 100000 := ⟨t.val * 2000 + p.val, by have : t.val < 50 := t.isLt; omega⟩

theorem rd_agg (c : Dev nD) (t : Fin cfg0.N) (p : Fin 2000) (k : Fin 16) :
    iblk0 V c 0 t (ix2 p k) = V c main_v13 (ix2 (row t p) k) := by
  show V c main_v13 (((cfg0.win 0).blk t).view.emb (ix2 p k)) = _
  refine congrArg (V c main_v13) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 16 + 1 * k.val = k.val; omega

theorem rd_x (c : Dev nD) (t : Fin cfg0.N) (p : Fin 2000) (k : Fin 16) :
    iblk0 V c 1 t (ix2 p k) = V c main_arg0 (ix2 (row t p) k) := by
  show V c main_arg0 (((cfg0.win 1).blk t).view.emb (ix2 p k)) = _
  refine congrArg (V c main_arg0) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 16 + 1 * k.val = k.val; omega

theorem rd_wrel (c : Dev nD) (t : Fin cfg0.N) (k : Fin 16) (q : Fin 128) :
    iblk0 V c 2 t (ix2 k q) = V c main_arg3 (ix2 k q) := by
  show V c main_arg3 (((cfg0.win 2).blk t).view.emb (ix2 k q)) = _
  refine congrArg (V c main_arg3) (funext fun a => Fin.ext ?_)
  obtain ⟨-, -, -, -, e0, e1, -⟩ := idx_facts t
  match a with
  | ⟨0, _⟩ => show win0_2.index t (0 : Fin 2) * 16 + 1 * k.val = k.val; omega
  | ⟨1, _⟩ => show win0_2.index t (1 : Fin 2) * 128 + 1 * q.val = q.val; omega

theorem rd_b (c : Dev nD) (t : Fin cfg0.N) (q : Fin 128) :
    iblk0 V c 3 t (ix2 (0 : Fin 1) q) = V c main_v14 (ix2 (0 : Fin 1) q) := by
  show V c main_v14 (((cfg0.win 3).blk t).view.emb (ix2 (0 : Fin 1) q)) = _
  refine congrArg (V c main_v14) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 128 + 1 * q.val = q.val; omega

theorem rd_wroot (c : Dev nD) (t : Fin cfg0.N) (k : Fin 16) (q : Fin 128) :
    iblk0 V c 4 t (ix2 k q) = V c main_arg5 (ix2 k q) := by
  show V c main_arg5 (((cfg0.win 4).blk t).view.emb (ix2 k q)) = _
  refine congrArg (V c main_arg5) (funext fun a => Fin.ext ?_)
  obtain ⟨-, -, -, -, -, -, -, -, e0, e1, -⟩ := idx_facts t
  match a with
  | ⟨0, _⟩ => show win0_4.index t (0 : Fin 2) * 16 + 1 * k.val = k.val; omega
  | ⟨1, _⟩ => show win0_4.index t (1 : Fin 2) * 128 + 1 * q.val = q.val; omega

/-- What point `t` writes back is block `t` of the layer's array. -/
theorem flushed_eq (c : Dev nD) (t : Fin cfg0.N) :
    (dat0 V c).flushed 5 t = ((cfg0.win 5).blk t).view.read (Elt Ideal)
      (Spec.dense16 (V c main_v13) (V c main_arg0) (V c main_arg3) (V c main_v14) (V c main_arg5)) := by
  show (cfg0.win 5).cut (grid0.coords t) ((dat0 V c).after 5 t) = _
  rw [after0_5]
  unfold out0_5
  rw [View.canon_unit_zero hz]
  simp only [View.ld_unit_zero (S := S2000x16) hz, View.ld_unit_zero (S := S16x128) hz, View.ld_unit_zero (S := S1x128) hz]
  funext j
  obtain ⟨p, q, rfl⟩ : ∃ (p : Fin 2000) (q : Fin 128), j = ix2 p q := ⟨j 0, j 1, eq_ix2 j⟩
  refine (pay_apply (iblk0 V c 0 t) (iblk0 V c 1 t) (iblk0 V c 2 t) (iblk0 V c 4 t) (iblk0 V c 3 t) p q).trans ?_
  obtain ⟨-, -, -, -, -, -, -, -, -, -, e0, e1⟩ := idx_facts t
  refine Eq.trans ?_ (Spec.dense16_at (V c main_v13) (V c main_arg0) (V c main_arg3) (V c main_v14) (V c main_arg5)
    (((cfg0.win 5).blk t).view.emb (ix2 p q)) (row t p) q
    (by show win0_5.index t (0 : Fin 2) * 2000 + 1 * p.val = t.val * 2000 + p.val; omega)
    (by show win0_5.index t (1 : Fin 2) * 128 + 1 * q.val = q.val; omega)).symm
  unfold Spec.denseAt
  simp only [rd_agg V c t, rd_x V c t, rd_wrel V c t, rd_b V c t, rd_wroot V c t]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Row `r` lies in block `r / 2000`: the 50 blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 2000 < 50 := by omega
  obtain ⟨-, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- THE OUTPUT ARRAY after region 0: the first layer of the arrays the region found. -/
theorem arr (c : Dev nD) :
    (dat0 V c).arrAt 5 cfg0.N = Spec.dense16 (V c main_v13) (V c main_arg0) (V c main_arg3) (V c main_v14) (V c main_arg5) :=
  (dat0 V c).arrAt_eq_of_cover 5 _ (fun t _ => flushed_eq V c t) cover

end Cert.KernelIdeal.Dense0

end
-- ==== Proof.Dense1.lean ====
/-
  The second layer's dense half (region 1), as one function of whole arrays. As in the first layer the region walks 50
  blocks of 2000 node rows, now with 128 input features: at a block it multiplies the block's rows of the neighbour sums
  and of the first layer's output by the two 128×128 weight matrices, adds the products and the bias row, and clamps at
  zero. Row p of block t is row 2000 · t + p of the arrays and the blocks tile the 100000 rows, so the output array ends as
  `Spec.dense128` of the five arrays the region found on entry, whatever they are.
-/
import proofs.«103581_j47218870452627_1_alg».proof.Proof.Gen.KernelIdeal.Frame
import proofs.«103581_j47218870452627_1_alg».proof.Proof.LibDot
import proofs.«103581_j47218870452627_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Cert.KernelIdeal Cert.KernelIdeal.Gen Idealize.ShloMosaic Idealize.ShloMosaic.ValueIdx Idealize.ShloMosaic.TcCoe Idealize.SL.Sem
open Idealize.ShloMosaic.Pipeline (Dat Cfg Window)

theorem hz : (![0, 0] : Fin 2 → Nat) = fun _ => 0 := funext fun a => by fin_cases a <;> rfl

/-- The printed dimension numbers are the plain product's. -/
theorem dims_eq : dot_S2000x128_S128x128_S2000x128_1_0_0_1_n_n = DotDims.plain 2000 128 128 := rfl

/-- The body's value at an entry of its block, from the five blocks it loads. -/
theorem pay_apply (a x : Vec Ideal S2000x128 .f32) (wr wo : Vec Ideal S128x128 .f32) (b : Vec Ideal S1x128 .f32) (p : Fin 2000) (q : Fin 128) :
    k1_pay1 a x wr wo b (ix2 p q)
      = max ((∑ k : Fin 128, a (ix2 p k) * wr (ix2 k q)) + (∑ k : Fin 128, x (ix2 p k) * wo (ix2 k q)) + b (ix2 (0 : Fin 1) q)) 0 := by
  unfold k1_pay1
  rw [maximumf_apply, addf_apply, addf_apply]
  simp only [matmul, dims_eq]
  rw [LibDot.matmul_plain_apply, LibDot.matmul_plain_apply]
  simp only [truncf_apply, shapeCast_self, broadcast_apply, broadcastTo_1b_ab_apply, Ideal.ofBits_def, Ideal.ofBits_zero_f32]

/-- The index maps over the grid: the two row-blocked inputs and the output move to block `t` of the rows, the weights
    and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of block `t`. -/
abbrev row (t : Fin cfg1.N) (p : Fin 2000) : Fin 100000 := ⟨t.val * 2000 + p.val, by have : t.val < 50 := t.isLt; omega⟩

theorem rd_agg (c : Dev nD) (t : Fin cfg1.N) (p : Fin 2000) (k : Fin 128) :
    iblk1 V c 0 t (ix2 p k) = V c main_v25 (ix2 (row t p) k) := by
  show V c main_v25 (((cfg1.win 0).blk t).view.emb (ix2 p k)) = _
  refine congrArg (V c main_v25) (funext fun a => Fin.ext ?_)
  obtain ⟨e0, e1, -⟩ := idx_facts t
  match a with
  | ⟨0, _⟩ => show win1_0.index t (0 : Fin 2) * 2000 + 1 * p.val = t.val * 2000 + p.val; omega
  | ⟨1, _⟩ => show win1_0.index t (1 : Fin 2) * 128 + 1 * k.val = k.val; omega

theorem rd_x (c : Dev nD) (t : Fin cfg1.N) (p : Fin 2000) (k : Fin 128) :
    iblk1 V c 1 t (ix2 p k) = V c main_v15 (ix2 (row t p) k) := by
  show V c main_v15 (((cfg1.win 1).blk t).view.emb (ix2 p k)) = _
  refine congrArg (V c main_v15) (funext fun a => Fin.ext ?_)
  obtain ⟨-, -, e0, e1, -⟩ := idx_facts t
  match a with
  | ⟨0, _⟩ => show win1_1.index t (0 : Fin 2) * 2000 + 1 * p.val = t.val * 2000 + p.val; omega
  | ⟨1, _⟩ => show win1_1.index t (1 : Fin 2) * 128 + 1 * k.val = k.val; omega

theorem rd_wrel (c : Dev nD) (t : Fin cfg1.N) (k : Fin 128) (q : Fin 128) :
    iblk1 V c 2 t (ix2 k q) = V c main_arg6 (ix2 k q) := by
  show V c main_arg6 (((cfg1.win 2).blk t).view.emb (ix2 k q)) = _
  refine congrArg (V c main_arg6) (funext fun a => Fin.ext ?_)
  obtain ⟨-, -, -, -, e0, e1, -⟩ := idx_facts t
  match a with
  | ⟨0, _⟩ => show win1_2.index t (0 : Fin 2) * 128 + 1 * k.val = k.val; omega
  | ⟨1, _⟩ => show win1_2.index t (1 : Fin 2) * 128 + 1 * q.val = q.val; omega

theorem rd_b (c : Dev nD) (t : Fin cfg1.N) (q : Fin 128) :
    iblk1 V c 3 t (ix2 (0 : Fin 1) q) = V c main_v26 (ix2 (0 : Fin 1) q) := by
  show V c main_v26 (((cfg1.win 3).blk t).view.emb (ix2 (0 : Fin 1) q)) = _
  refine congrArg (V c main_v26) (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 128 + 1 * q.val = q.val; omega

theorem rd_wroot (c : Dev nD) (t : Fin cfg1.N) (k : Fin 128) (q : Fin 128) :
    iblk1 V c 4 t (ix2 k q) = V c main_arg8 (ix2 k q) := by
  show V c main_arg8 (((cfg1.win 4).blk t).view.emb (ix2 k q)) = _
  refine congrArg (V c main_arg8) (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 128 + 1 * q.val = q.val; omega

/-- What point `t` writes back is block `t` of the layer's array. -/
theorem flushed_eq (c : Dev nD) (t : Fin cfg1.N) :
    (dat1 V c).flushed 5 t = ((cfg1.win 5).blk t).view.read (Elt Ideal)
      (Spec.dense128 (V c main_v25) (V c main_v15) (V c main_arg6) (V c main_v26) (V c main_arg8)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) (iblk1 V c 4 t) (iblk1 V c 3 t) p q).trans ?_
  obtain ⟨-, -, -, -, -, -, -, -, -, -, e0, e1⟩ := idx_facts t
  refine Eq.trans ?_ (Spec.dense128_at (V c main_v25) (V c main_v15) (V c main_arg6) (V c main_v26) (V c main_arg8)
    (((cfg1.win 5).blk t).view.emb (ix2 p q)) (row t p) q
    (by show win1_5.index t (0 : Fin 2) * 2000 + 1 * p.val = t.val * 2000 + p.val; omega)
    (by show win1_5.index t (1 : Fin 2) * 128 + 1 * q.val = q.val; omega)).symm
  unfold Spec.denseAt
  simp only [rd_agg V c t, rd_x V c t, rd_wrel V c t, rd_b V c t, rd_wroot V c t]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v27).slice (win1_5.rect t)).set ↔ _
  rw [View.set_slice_whole, Rect.mem_set_unit]
  exact Iff.rfl

/-- Row `r` lies in block `r / 2000`: the 50 blocks cover the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 2000 < 50 := by omega
  obtain ⟨-, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

/-- THE OUTPUT ARRAY after region 1: the second layer of the arrays the region found. -/
theorem arr (c : Dev nD) :
    (dat1 V c).arrAt 5 cfg1.N = Spec.dense128 (V c main_v25) (V c main_v15) (V c main_arg6) (V c main_v26) (V c main_arg8) :=
  (dat1 V c).arrAt_eq_of_cover 5 _ (fun t _ => flushed_eq V c t) cover

end Cert.KernelIdeal.Dense1

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Head.lean ====
/-
  The mean-pool and classifier head (region 2), as one function of whole arrays. The region has one grid point whose
  blocks are the whole arrays: it divides each graph's row of feature sums by that graph's node count clamped below at one
  (the count is a column, spread along the row), multiplies the quotients by the 128×2 classifier matrix and adds the bias
  row. An entry (g, q) is therefore Σ_k (sums (g, k) / max (cnt (g, 0)) 1) · wfc (k, q) + bfc (0, q), and the output array
  ends as `Spec.head` of the four arrays the region found on entry, whatever they are.
-/
import proofs.«103581_j47218870452627_1_alg».proof.Proof.Gen.KernelIdeal.Frame
import proofs.«103581_j47218870452627_1_alg».proof.Proof.LibDot
import proofs.«103581_j47218870452627_1_alg».proof.Proof.LibColumn
import proofs.«103581_j47218870452627_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.ValueIdx Idealize.ShloMosaic.TcCoe Idealize.SL.Sem
open Idealize.ShloMosaic.Pipeline (Dat Cfg Window)

theorem hz : (![0, 0] : Fin 2 → Nat) = fun _ => 0 := funext fun a => by fin_cases a <;> rfl

/-- The printed dimension numbers are the plain product's. -/
theorem dims_eq : dot_S2048x128_S128x2_S2048x2_1_0_0_1_n_n = DotDims.plain 2048 128 2 := rfl

/-- The body's value at an entry, from the four blocks it loads. -/
theorem pay_apply (s : Vec Ideal S2048x128 .f32) (n : Vec Ideal S2048x1 .f32) (w : Vec Ideal S128x2 .f32) (b : Vec Ideal S1x2 .f32)
    (g : Fin 2048) (q : Fin 2) :
    k2_pay1 s n w b (ix2 g q)
      = (∑ k : Fin 128, Ideal.div (s (ix2 g k)) (max (n (ix2 g (0 : Fin 1))) (Ideal.ofBits .f32 0x3F800000#32)) * w (ix2 k q))
        + b (ix2 (0 : Fin 1) q) := by
  unfold k2_pay1
  rw [addf_apply]
  simp only [matmul, dims_eq]
  rw [LibDot.matmul_plain_apply]
  simp only [truncf_apply, divf_apply, maximumf_apply, shapeCast_self, broadcast_apply, broadcastTo_1b_ab_apply,
    LibColumn.broadcastTo_a1_ab_apply, Ideal.ofBits_def]

/-- The index maps at the one grid point: every window sits at its one block. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

theorem rd_sums (c : Dev nD) (t : Fin cfg2.N) (g : Fin 2048) (k : Fin 128) :
    iblk2 V c 0 t (ix2 g k) = V c main_v30 (ix2 g k) := by
  show V c main_v30 (((cfg2.win 0).blk t).view.emb (ix2 g k)) = _
  refine congrArg (V c main_v30) (funext fun a => Fin.ext ?_)
  obtain ⟨e0, e1, -⟩ := idx_facts t
  match a with
  | ⟨0, _⟩ => show win2_0.index t (0 : Fin 2) * 2048 + 1 * g.val = g.val; omega
  | ⟨1, _⟩ => show win2_0.index t (1 : Fin 2) * 128 + 1 * k.val = k.val; omega

theorem rd_cnt (c : Dev nD) (t : Fin cfg2.N) (g : Fin 2048) :
    iblk2 V c 1 t (ix2 g (0 : Fin 1)) = V c main_v35 (ix2 g (0 : Fin 1)) := by
  show V c main_v35 (((cfg2.win 1).blk t).view.emb (ix2 g (0 : Fin 1))) = _
  refine congrArg (V c main_v35) (funext fun a => Fin.ext ?_)
  obtain ⟨-, -, e0, e1, -⟩ := idx_facts t
  match a with
  | ⟨0, _⟩ => show win2_1.index t (0 : Fin 2) * 2048 + 1 * g.val = g.val; omega
  | ⟨1, _⟩ => show win2_1.index t (1 : Fin 2) * 1 + 1 * 0 = 0; omega

theorem rd_wfc (c : Dev nD) (t : Fin cfg2.N) (k : Fin 128) (q : Fin 2) :
    iblk2 V c 2 t (ix2 k q) = V c main_arg9 (ix2 k q) := by
  show V c main_arg9 (((cfg2.win 2).blk t).view.emb (ix2 k q)) = _
  refine congrArg (V c main_arg9) (funext fun a => Fin.ext ?_)
  obtain ⟨-, -, -, -, e0, e1, -⟩ := idx_facts t
  match a with
  | ⟨0, _⟩ => show win2_2.index t (0 : Fin 2) * 128 + 1 * k.val = k.val; omega
  | ⟨1, _⟩ => show win2_2.index t (1 : Fin 2) * 2 + 1 * q.val = q.val; omega

theorem rd_bfc (c : Dev nD) (t : Fin cfg2.N) (q : Fin 2) :
    iblk2 V c 3 t (ix2 (0 : Fin 1) q) = V c main_v36 (ix2 (0 : Fin 1) q) := by
  show V c main_v36 (((cfg2.win 3).blk t).view.emb (ix2 (0 : Fin 1) q)) = _
  refine congrArg (V c main_v36) (funext fun a => Fin.ext ?_)
  obtain ⟨-, -, -, -, -, -, e0, e1, -⟩ := idx_facts t
  match a with
  | ⟨0, _⟩ => show win2_3.index t (0 : Fin 2) * 1 + 1 * 0 = 0; omega
  | ⟨1, _⟩ => show win2_3.index t (1 : Fin 2) * 2 + 1 * q.val = q.val; omega

/-- What the one point writes back is the head's whole array, read through the output's one block. -/
theorem flushed_eq (c : Dev nD) (t : Fin cfg2.N) :
    (dat2 V c).flushed 4 t = ((cfg2.win 4).blk t).view.read (Elt Ideal)
      (Spec.head (V c main_v30) (V c main_v35) (V c main_arg9) (V c main_v36)) := by
  show (cfg2.win 4).cut (grid2.coords t) ((dat2 V c).after 4 t) = _
  rw [after2_4]
  unfold out2_4
  rw [View.canon_unit_zero hz]
  simp only [View.ld_unit_zero (S := S2048x128) hz, View.ld_unit_zero (S := S2048x1) hz, View.ld_unit_zero (S := S128x2) hz,
    View.ld_unit_zero (S := S1x2) hz]
  funext j
  obtain ⟨g, q, rfl⟩ : ∃ (g : Fin 2048) (q : Fin 2), j = ix2 g q := ⟨j 0, j 1, eq_ix2 j⟩
  refine (pay_apply (iblk2 V c 0 t) (iblk2 V c 1 t) (iblk2 V c 2 t) (iblk2 V c 3 t) g q).trans ?_
  obtain ⟨-, -, -, -, -, -, -, -, e0, e1⟩ := idx_facts t
  refine Eq.trans ?_ (Spec.head_at (V c main_v30) (V c main_v35) (V c main_arg9) (V c main_v36)
    (((cfg2.win 4).blk t).view.emb (ix2 g q)) g q
    (by show win2_4.index t (0 : Fin 2) * 2048 + 1 * g.val = g.val; omega)
    (by show win2_4.index t (1 : Fin 2) * 2 + 1 * q.val = q.val; omega)).symm
  unfold Spec.headAt
  simp only [rd_sums V c t, rd_cnt V c t, rd_wfc V c t, rd_bfc V c t]

/-- An index of the output array is in point `t`'s block iff each coordinate is in the block's range on its axis. -/
theorem mem_blk (t : Fin cfg2.N) (i : S2048x2.Idx) :
    i ∈ ((cfg2.win 4).blk t).view.set ↔ ∀ a : Fin 2, win2_4.index t a * S2048x2.size a ≤ (i a).val ∧ (i a).val < win2_4.index t a * S2048x2.size a + S2048x2.size a := by
  show i ∈ ((View.whole main_v37).slice (win2_4.rect t)).set ↔ _
  rw [View.set_slice_whole, Rect.mem_set_unit]
  exact Iff.rfl

/-- The one block is the whole array. -/
theorem cover (i : S2048x2.Idx) : ∃ t : Fin cfg2.N, (cfg2.win 4).flush t = true ∧ i ∈ ((cfg2.win 4).blk t).view.set := by
  have hi0 : (i 0).val < 2048 := (i 0).isLt
  have hi1 : (i 1).val < 2 := (i 1).isLt
  have ht : 0 < 1 := Nat.one_pos
  obtain ⟨-, -, -, -, -, -, -, -, e0, e1⟩ := idx_facts ⟨0, ht⟩
  refine ⟨⟨0, ht⟩, flush2_4 _, ?_⟩
  rw [mem_blk]
  intro a
  match a with
  | ⟨0, _⟩ =>
    show win2_4.index ⟨0, ht⟩ (0 : Fin 2) * 2048 ≤ (i 0).val ∧ (i 0).val < win2_4.index ⟨0, ht⟩ (0 : Fin 2) * 2048 + 2048
    rw [e0]; omega
  | ⟨1, _⟩ =>
    show win2_4.index ⟨0, ht⟩ (1 : Fin 2) * 2 ≤ (i 1).val ∧ (i 1).val < win2_4.index ⟨0, ht⟩ (1 : Fin 2) * 2 + 2
    rw [e1]; omega

/-- THE OUTPUT ARRAY after region 2: the head of the arrays the region found. -/
theorem arr (c : Dev nD) :
    (dat2 V c).arrAt 4 cfg2.N = Spec.head (V c main_v30) (V c main_v35) (V c main_arg9) (V c main_v36) :=
  (dat2 V c).arrAt_eq_of_cover 4 _ (fun t _ => flushed_eq V c t) cover

end Cert.KernelIdeal.Head

end
-- ==== Proof.RefLayers.lean ====
/-
  The reference's stages are the three specification functions. Over the extended reals the reference computes each
  dense layer as max ((Σ_k agg (p, k) · wrel (k, q) + b (q)) + Σ_k x (p, k) · wroot (k, q)) 0 — its two `dot_general`s read
  as sums over the contracted coordinate, its bias spread over the rows — which is the specification's
  max (Σ agg · wrel + Σ x · wroot + b) 0 by the commutative-monoid law (a + b) + c = (a + c) + b of the extended reals'
  addition; no distributivity is used, so nothing is asked of the inputs. Its head divides the pooled sums by the counts
  clamped at one, spread from a vector to a column to the rows, before the last `dot_general` and bias: the specification's
  head entry for entry. The neighbour sums and the pooled sums (a gather and scatter-adds of the arguments) enter both
  sides as the same unopened terms.
-/
import proofs.«103581_j47218870452627_1_alg».proof.Proof.Gen.ReferenceIdeal.Read
import proofs.«103581_j47218870452627_1_alg».proof.Proof.Spec
import proofs.«103581_j47218870452627_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Cert.ReferenceIdeal Cert.ReferenceIdeal.Read Idealize.ShloMosaic Idealize.ShloMosaic.ValueIdx

variable (x0 : (⟨S100000x16, .f32⟩ : BufTy).Contents (Elt Ideal)) (x1 : (⟨S2x1600000, .i32⟩ : BufTy).Contents (Elt Ideal))
  (x2 : (⟨S100000, .i32⟩ : BufTy).Contents (Elt Ideal)) (x3 : (⟨S16x128, .f32⟩ : BufTy).Contents (Elt Ideal))
  (x4 : (⟨S128, .f32⟩ : BufTy).Contents (Elt Ideal)) (x5 : (⟨S16x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128x2, .f32⟩ : BufTy).Contents (Elt Ideal))
  (x10 : (⟨S2, .f32⟩ : BufTy).Contents (Elt Ideal))

/-- The first layer: the reference's stage after its first relu is the specification's layer of the neighbour sums, the
    node features, the weights and the bias row. -/
theorem layer1_eq (hb : S128.ShapeCasts S1x128) :
    Spec.dense16 (val_main_v13 (F := Ideal) x0 x1) x0 x3 (shapeCast S1x128 x4 hb) x5 = val_main_v20 (F := Ideal) x0 x1 x3 x4 x5 := by
  funext i
  obtain ⟨p, q, rfl⟩ : ∃ (p : Fin 100000) (q : Fin 128), i = ix2 p q := ⟨i 0, i 1, eq_ix2 i⟩
  rw [Spec.dense16_at _ _ _ _ _ (ix2 p q) p q rfl rfl]
  rw [val_main_v20_apply, val_main_v19_apply, val_main_v17_apply, val_main_v14_apply, val_main_v16_apply, val_main_v15_apply,
    val_main_v18_apply, val_main_call0_v0_apply, val_main_call0_cst_apply]
  unfold Spec.denseAt
  have el14 : ∀ k : Fin 16, lidx_main_v14 (ix2 p q) k = ix2 p k := fun k => Spec.eq_ix2_of _ _ _ rfl rfl
  have er14 : ∀ k : Fin 16, ridx_main_v14 (ix2 p q) k = ix2 k q := fun k => Spec.eq_ix2_of _ _ _ rfl rfl
  have el18 : ∀ k : Fin 16, lidx_main_v18 (ix2 p q) k = ix2 p k := fun k => Spec.eq_ix2_of _ _ _ rfl rfl
  have er18 : ∀ k : Fin 16, ridx_main_v18 (ix2 p q) k = ix2 k q := fun k => Spec.eq_ix2_of _ _ _ rfl rfl
  have eb : idx_main_v15 (idx_main_v16 (ix2 p q)) = ix1 q := Spec.eq_ix1_of _ _ rfl
  simp only [el14, er14, el18, er18, eb, Ideal.addf_def, Ideal.maximumf_def, Ideal.ofBits_def, Ideal.ofBits_zero_f32, shapeCast_a_1a_apply]
  rw [add_right_comm]

/-- The second layer: the reference's stage after its second relu is the specification's layer of the second neighbour
    sums, the first layer's output, the weights and the bias row. -/
theorem layer2_eq (hb : S128.ShapeCasts S1x128) :
    Spec.dense128 (val_main_v30 (F := Ideal) x0 x1 x3 x4 x5) (val_main_v20 (F := Ideal) x0 x1 x3 x4 x5) x6 (shapeCast S1x128 x7 hb) x8
      = val_main_v37 (F := Ideal) x0 x1 x3 x4 x5 x6 x7 x8 := by
  funext i
  obtain ⟨p, q, rfl⟩ : ∃ (p : Fin 100000) (q : Fin 128), i = ix2 p q := ⟨i 0, i 1, eq_ix2 i⟩
  rw [Spec.dense128_at _ _ _ _ _ (ix2 p q) p q rfl rfl]
  rw [val_main_v37_apply, val_main_v36_apply, val_main_v34_apply, val_main_v31_apply, val_main_v33_apply, val_main_v32_apply,
    val_main_v35_apply, val_main_call1_v0_apply, val_main_call1_cst_apply]
  unfold Spec.denseAt
  have el31 : ∀ k : Fin 128, lidx_main_v31 (ix2 p q) k = ix2 p k := fun k => Spec.eq_ix2_of _ _ _ rfl rfl
  have er31 : ∀ k : Fin 128, ridx_main_v31 (ix2 p q) k = ix2 k q := fun k => Spec.eq_ix2_of _ _ _ rfl rfl
  have el35 : ∀ k : Fin 128, lidx_main_v35 (ix2 p q) k = ix2 p k := fun k => Spec.eq_ix2_of _ _ _ rfl rfl
  have er35 : ∀ k : Fin 128, ridx_main_v35 (ix2 p q) k = ix2 k q := fun k => Spec.eq_ix2_of _ _ _ rfl rfl
  have eb : idx_main_v32 (idx_main_v33 (ix2 p q)) = ix1 q := Spec.eq_ix1_of _ _ rfl
  simp only [el31, er31, el35, er35, eb, Ideal.addf_def, Ideal.maximumf_def, Ideal.ofBits_def, Ideal.ofBits_zero_f32, shapeCast_a_1a_apply]
  rw [add_right_comm]

/-- The head: the reference's result is the specification's head of the pooled sums, the node counts as a column, the
    classifier matrix and the bias row. -/
theorem head_eq (hc : S2048.ShapeCasts S2048x1) (hb : S2.ShapeCasts S1x2) :
    Spec.head (val_main_v40 (F := Ideal) x0 x1 x2 x3 x4 x5 x6 x7 x8) (shapeCast S2048x1 (val_main_v44 (F := Ideal) x2) hc) x9
        (shapeCast S1x2 x10 hb)
      = val_main_v53 (F := Ideal) x0 x1 x2 x3 x4 x5 x6 x7 x8 x9 x10 := by
  funext i
  obtain ⟨g, q, rfl⟩ : ∃ (g : Fin 2048) (q : Fin 2), i = ix2 g q := ⟨i 0, i 1, eq_ix2 i⟩
  rw [Spec.head_at _ _ _ _ (ix2 g q) g q rfl rfl]
  rw [val_main_v53_apply, val_main_v50_apply, val_main_v52_apply, val_main_v51_apply]
  unfold Spec.headAt
  have el : ∀ k : Fin 128, lidx_main_v50 (ix2 g q) k = ix2 g k := fun k => Spec.eq_ix2_of _ _ _ rfl rfl
  have er : ∀ k : Fin 128, ridx_main_v50 (ix2 g q) k = ix2 k q := fun k => Spec.eq_ix2_of _ _ _ rfl rfl
  have ec : ∀ k : Fin 128, idx_main_v47 (idx_main_v48 (ix2 g k)) = ix1 g := fun k => Spec.eq_ix1_of _ _ rfl
  have eb : idx_main_v51 (idx_main_v52 (ix2 g q)) = ix1 q := Spec.eq_ix1_of _ _ rfl
  simp only [el, er, eb, val_main_v49_apply, val_main_v48_apply, val_main_v47_apply, val_main_v46_apply, val_main_v45_apply,
    val_main_cst_7_apply, ec, Ideal.addf_def, Ideal.hostDivf_def, Ideal.maximumf_def, Ideal.ofBits_def, shapeCast_a_1a_apply,
    LibColumn.shapeCast_a_a1_apply]

end Cert.ReferenceIdeal.Layers

end
-- ==== Proof.Chain.lean ====
/-
  The idealized kernel's result, boundary by boundary. Between its three regions @main runs the same host operations as
  the reference: a gather of source rows and a scatter-add into destination rows before each dense layer, a scatter-add into
  graphs and a count of nodes per graph before the head. So the contents of the buffers at each region's entry are the
  reference's own stages of the argument arrays, each region's exit is the specification's layer or head of its entry
  arrays, and that is the reference's next stage: after region 0 its stage behind the first relu, after region 1 the
  stage behind the second, after region 2 its result. A buffer no host operation of a stretch writes and no window of
  a region holds passes through unchanged; the gathers and scatter-adds are never opened.
-/
import proofs.«103581_j47218870452627_1_alg».proof.Proof.Dense0
import proofs.«103581_j47218870452627_1_alg».proof.Proof.Dense1
import proofs.«103581_j47218870452627_1_alg».proof.Proof.Head
import proofs.«103581_j47218870452627_1_alg».proof.Proof.RefLayers
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Read (val_main_v1 val_main_v3 val_main_v13 val_main_v20 val_main_v30 val_main_v37 val_main_v40 val_main_v44 val_main_v53)

variable (m : (ℓ : Loc nD τ sig) → Buf (Elt Ideal) ℓ) (ρ : Dev nD → PrngReg)

/-- Buffer `b`'s contents on core `c` at launch. -/
abbrev inp (c : Dev nD) (b : Ref sig .tc) : Buf (Elt Ideal) ((c.tc : Thread nD τ).loc b) := m ((c.tc : Thread nD τ).loc b)

/-! ## Buffers that pass through the first stretch and region 0 -/

theorem W1_batch (c : Dev nD) : W1 m ρ c (Proc.devRef .tc main_arg2) = inp m c main_arg2 := by
  show StableHlo.after hostOps0 (W0 m ρ c) (Proc.devRef .tc main_arg2) = _
  after_results
  all_goals rfl
theorem W2_batch (c : Dev nD) : W2 m ρ c (Proc.devRef .tc main_arg2) = inp m c main_arg2 :=
  (W2_of_ne m ρ c main_arg2 (by decide)).trans (W1_batch m ρ c)

theorem W1_wrel2 (c : Dev nD) : W1 m ρ c (Proc.devRef .tc main_arg6) = inp m c main_arg6 := by
  show StableHlo.after hostOps0 (W0 m ρ c) (Proc.devRef .tc main_arg6) = _
  after_results
  all_goals rfl
theorem W2_wrel2 (c : Dev nD) : W2 m ρ c (Proc.devRef .tc main_arg6) = inp m c main_arg6 :=
  (W2_of_ne m ρ c main_arg6 (by decide)).trans (W1_wrel2 m ρ c)

theorem W1_b2 (c : Dev nD) : W1 m ρ c (Proc.devRef .tc main_arg7) = inp m c main_arg7 := by
  show StableHlo.after hostOps0 (W0 m ρ c) (Proc.devRef .tc main_arg7) = _
  after_results
  all_goals rfl
theorem W2_b2 (c : Dev nD) : W2 m ρ c (Proc.devRef .tc main_arg7) = inp m c main_arg7 :=
  (W2_of_ne m ρ c main_arg7 (by decide)).trans (W1_b2 m ρ c)

theorem W1_wroot2 (c : Dev nD) : W1 m ρ c (Proc.devRef .tc main_arg8) = inp m c main_arg8 := by
  show StableHlo.after hostOps0 (W0 m ρ c) (Proc.devRef .tc main_arg8) = _
  after_results
  all_goals rfl
theorem W2_wroot2 (c : Dev nD) : W2 m ρ c (Proc.devRef .tc main_arg8) = inp m c main_arg8 :=
  (W2_of_ne m ρ c main_arg8 (by decide)).trans (W1_wroot2 m ρ c)

theorem W1_wfc (c : Dev nD) : W1 m ρ c (Proc.devRef .tc main_arg9) = inp m c main_arg9 := by
  show StableHlo.after hostOps0 (W0 m ρ c) (Proc.devRef .tc main_arg9) = _
  after_results
  all_goals rfl
theorem W2_wfc (c : Dev nD) : W2 m ρ c (Proc.devRef .tc main_arg9) = inp m c main_arg9 :=
  (W2_of_ne m ρ c main_arg9 (by decide)).trans (W1_wfc m ρ c)

theorem W1_bfc (c : Dev nD) : W1 m ρ c (Proc.devRef .tc main_arg10) = inp m c main_arg10 := by
  show StableHlo.after hostOps0 (W0 m ρ c) (Proc.devRef .tc main_arg10) = _
  after_results
  all_goals rfl
theorem W2_bfc (c : Dev nD) : W2 m ρ c (Proc.devRef .tc main_arg10) = inp m c main_arg10 :=
  (W2_of_ne m ρ c main_arg10 (by decide)).trans (W1_bfc m ρ c)

/-- The source and the destination node of every edge, computed before region 0 and kept across it. -/
theorem W2_src (c : Dev nD) : W2 m ρ c (Proc.devRef .tc main_v1) = val_main_v1 (F := Ideal) (inp m c main_arg1) :=
  (W2_of_ne m ρ c main_v1 (by decide)).trans (by
    show StableHlo.after hostOps0 (W0 m ρ c) (Proc.devRef .tc main_v1) = _
    after_results
    all_goals rfl)
theorem W2_dst (c : Dev nD) : W2 m ρ c (Proc.devRef .tc main_v3) = val_main_v3 (F := Ideal) (inp m c main_arg1) :=
  (W2_of_ne m ρ c main_v3 (by decide)).trans (by
    show StableHlo.after hostOps0 (W0 m ρ c) (Proc.devRef .tc main_v3) = _
    after_results
    all_goals rfl)

/-! ## Buffers that pass through the second stretch and region 1 -/

theorem W3_batch (c : Dev nD) : W3 m ρ c (Proc.devRef .tc main_arg2) = inp m c main_arg2 := by
  show StableHlo.after hostOps1 (W2 m ρ c) (Proc.devRef .tc main_arg2) = _
  after_results
  all_goals exact W2_batch m ρ c
theorem W4_batch (c : Dev nD) : W4 m ρ c (Proc.devRef .tc main_arg2) = inp m c main_arg2 :=
  (W4_of_ne m ρ c main_arg2 (by decide)).trans (W3_batch m ρ c)

theorem W3_wfc (c : Dev nD) : W3 m ρ c (Proc.devRef .tc main_arg9) = inp m c main_arg9 := by
  show StableHlo.after hostOps1 (W2 m ρ c) (Proc.devRef .tc main_arg9) = _
  after_results
  all_goals exact W2_wfc m ρ c
theorem W4_wfc (c : Dev nD) : W4 m ρ c (Proc.devRef .tc main_arg9) = inp m c main_arg9 :=
  (W4_of_ne m ρ c main_arg9 (by decide)).trans (W3_wfc m ρ c)

theorem W3_bfc (c : Dev nD) : W3 m ρ c (Proc.devRef .tc main_arg10) = inp m c main_arg10 := by
  show StableHlo.after hostOps1 (W2 m ρ c) (Proc.devRef .tc main_arg10) = _
  after_results
  all_goals exact W2_bfc m ρ c
theorem W4_bfc (c : Dev nD) : W4 m ρ c (Proc.devRef .tc main_arg10) = inp m c main_arg10 :=
  (W4_of_ne m ρ c main_arg10 (by decide)).trans (W3_bfc m ρ c)

/-! ## Region 0 -/

theorem entry0_agg (c : Dev nD) : V1 m ρ c main_v13 = val_main_v13 (F := Ideal) (inp m c main_arg0) (inp m c main_arg1) := by
  show StableHlo.after hostOps0 (W0 m ρ c) (Proc.devRef .tc main_v13) = _
  after_results
  all_goals rfl
theorem entry0_x (c : Dev nD) : V1 m ρ c main_arg0 = inp m c main_arg0 := by
  show StableHlo.after hostOps0 (W0 m ρ c) (Proc.devRef .tc main_arg0) = _
  after_results
  all_goals rfl
theorem entry0_wrel (c : Dev nD) : V1 m ρ c main_arg3 = inp m c main_arg3 := by
  show StableHlo.after hostOps0 (W0 m ρ c) (Proc.devRef .tc main_arg3) = _
  after_results
  all_goals rfl
theorem entry0_b (c : Dev nD) : V1 m ρ c main_v14 = shapeCast S1x128 (inp m c main_arg4) shapeCasts_S128_S1x128 := by
  show StableHlo.after hostOps0 (W0 m ρ c) (Proc.devRef .tc main_v14) = _
  after_results
  all_goals rfl
theorem entry0_wroot (c : Dev nD) : V1 m ρ c main_arg5 = inp m c main_arg5 := by
  show StableHlo.after hostOps0 (W0 m ρ c) (Proc.devRef .tc main_arg5) = _
  after_results
  all_goals rfl

/-- After region 0 its output array is the reference's stage behind the first relu. -/
theorem exit0 (c : Dev nD) :
    W2 m ρ c (Proc.devRef .tc main_v15)
      = val_main_v20 (F := Ideal) (inp m c main_arg0) (inp m c main_arg1) (inp m c main_arg3) (inp m c main_arg4) (inp m c main_arg5) :=
  (W2_arr m ρ c 5).trans ((Dense0.arr (V1 m ρ) c).trans (by
    rw [entry0_agg, entry0_x, entry0_wrel, entry0_b, entry0_wroot]
    exact Cert.ReferenceIdeal.Layers.layer1_eq _ _ _ _ _ _))

/-! ## Region 1 -/

theorem entry1_agg (c : Dev nD) :
    V3 m ρ c main_v25
      = val_main_v30 (F := Ideal) (inp m c main_arg0) (inp m c main_arg1) (inp m c main_arg3) (inp m c main_arg4) (inp m c main_arg5) := by
  show StableHlo.after hostOps1 (W2 m ρ c) (Proc.devRef .tc main_v25) = _
  after_results
  rw [exit0, W2_src, W2_dst]
  rfl
theorem entry1_x (c : Dev nD) :
    V3 m ρ c main_v15
      = val_main_v20 (F := Ideal) (inp m c main_arg0) (inp m c main_arg1) (inp m c main_arg3) (inp m c main_arg4) (inp m c main_arg5) := by
  show StableHlo.after hostOps1 (W2 m ρ c) (Proc.devRef .tc main_v15) = _
  after_results
  all_goals exact exit0 m ρ c
theorem entry1_wrel (c : Dev nD) : V3 m ρ c main_arg6 = inp m c main_arg6 := by
  show StableHlo.after hostOps1 (W2 m ρ c) (Proc.devRef .tc main_arg6) = _
  after_results
  all_goals exact W2_wrel2 m ρ c
theorem entry1_b (c : Dev nD) : V3 m ρ c main_v26 = shapeCast S1x128 (inp m c main_arg7) shapeCasts_S128_S1x128 := by
  show StableHlo.after hostOps1 (W2 m ρ c) (Proc.devRef .tc main_v26) = _
  after_results
  rw [W2_b2]
  rfl
theorem entry1_wroot (c : Dev nD) : V3 m ρ c main_arg8 = inp m c main_arg8 := by
  show StableHlo.after hostOps1 (W2 m ρ c) (Proc.devRef .tc main_arg8) = _
  after_results
  all_goals exact W2_wroot2 m ρ c

/-- After region 1 its output array is the reference's stage behind the second relu. -/
theorem exit1 (c : Dev nD) :
    W4 m ρ c (Proc.devRef .tc main_v27)
      = val_main_v37 (F := Ideal) (inp m c main_arg0) (inp m c main_arg1) (inp m c main_arg3) (inp m c main_arg4) (inp m c main_arg5)
          (inp m c main_arg6) (inp m c main_arg7) (inp m c main_arg8) :=
  (W4_arr m ρ c 5).trans ((Dense1.arr (V3 m ρ) c).trans (by
    rw [entry1_agg, entry1_x, entry1_wrel, entry1_b, entry1_wroot]
    exact Cert.ReferenceIdeal.Layers.layer2_eq _ _ _ _ _ _ _ _ _))

/-! ## Region 2 -/

theorem entry2_sums (c : Dev nD) :
    V5 m ρ c main_v30
      = val_main_v40 (F := Ideal) (inp m c main_arg0) (inp m c main_arg1) (inp m c main_arg2) (inp m c main_arg3) (inp m c main_arg4)
          (inp m c main_arg5) (inp m c main_arg6) (inp m c main_arg7) (inp m c main_arg8) := by
  show StableHlo.after hostOps2 (W4 m ρ c) (Proc.devRef .tc main_v30) = _
  after_results
  rw [exit1, W4_batch]
  rfl
theorem entry2_cnt (c : Dev nD) :
    V5 m ρ c main_v35 = shapeCast S2048x1 (val_main_v44 (F := Ideal) (inp m c main_arg2)) shapeCasts_S2048_S2048x1 := by
  show StableHlo.after hostOps2 (W4 m ρ c) (Proc.devRef .tc main_v35) = _
  after_results
  rw [W4_batch]
  rfl
theorem entry2_wfc (c : Dev nD) : V5 m ρ c main_arg9 = inp m c main_arg9 := by
  show StableHlo.after hostOps2 (W4 m ρ c) (Proc.devRef .tc main_arg9) = _
  after_results
  all_goals exact W4_wfc m ρ c
theorem entry2_bfc (c : Dev nD) : V5 m ρ c main_v36 = shapeCast S1x2 (inp m c main_arg10) shapeCasts_S2_S1x2 := by
  show StableHlo.after hostOps2 (W4 m ρ c) (Proc.devRef .tc main_v36) = _
  after_results
  rw [W4_bfc]
  rfl

/-- THE RESULT: after region 2 the result buffer holds the reference's result stage of the argument arrays. -/
theorem result (c : Dev nD) :
    W6 m ρ c (Proc.devRef .tc main_v37)
      = val_main_v53 (F := Ideal) (inp m c main_arg0) (inp m c main_arg1) (inp m c main_arg2) (inp m c main_arg3) (inp m c main_arg4)
          (inp m c main_arg5) (inp m c main_arg6) (inp m c main_arg7) (inp m c main_arg8) (inp m c main_arg9) (inp m c main_arg10) :=
  (W6_arr m ρ c 4).trans ((Head.arr (V5 m ρ) c).trans (by
    rw [entry2_sums, entry2_cnt, entry2_wfc, entry2_bfc]
    exact Cert.ReferenceIdeal.Layers.head_eq _ _ _ _ _ _ _ _ _ _ _ _ _))

end Cert.KernelIdeal.Chain

end
-- ==== Proof.lean ====
/-
  Over the extended reals the kernel and the reference classify a batch of graphs alike. Both pass node features through two
  graph-convolution layers — each the sum over a node's in-edges of its neighbours' features times one weight matrix, plus the
  node's own features times another, plus a bias, clamped at zero — then average each graph's node features (the sum divided
  by the node count clamped below at one) and apply a linear classifier. The kernel computes the gathers and scatter-adds on
  the host exactly as the reference does and the three dense pieces in Pallas regions over row blocks; at the exact values a
  change of float format is the identity, a `tpu.matmul` into zero and a `dot_general` are the same finite sums, and the two
  programs differ only in the order of a three-term sum per entry, which the extended reals' commutative addition does not see.
  So the claim needs nothing of the inputs beyond what lets each program run: the precondition is never opened.

  The three frames: the two kernels' are the generated frame certificates; the reference's is its generated run with the
  result dropped. `preserves` has no entry. For `algebraic`, the kernel's run is the generated launch with the result buffer
  named (Proof/ValueRun.lean), its contents read boundary by boundary as the reference's stages (Proof/Chain.lean over
  Proof/Dense0.lean, Dense1.lean, Head.lean and Proof/RefLayers.lean); the reference's run is its generated run read as
  the same stage of arguments that agree.
-/
import proofs.«103581_j47218870452627_1_alg».proof.Defs
import proofs.«103581_j47218870452627_1_alg».proof.Proof.Gen.Kernel
import proofs.«103581_j47218870452627_1_alg».proof.Proof.Gen.Kernel.Skeleton
import proofs.«103581_j47218870452627_1_alg».proof.Proof.Gen.Kernel.Launch
import proofs.«103581_j47218870452627_1_alg».proof.Proof.Gen.Kernel.Points
import proofs.«103581_j47218870452627_1_alg».proof.Proof.Gen.Kernel.Frame
import proofs.«103581_j47218870452627_1_alg».proof.Proof.Gen.KernelIdeal
import proofs.«103581_j47218870452627_1_alg».proof.Proof.Gen.KernelIdeal.Skeleton
import proofs.«103581_j47218870452627_1_alg».proof.Proof.Gen.KernelIdeal.Launch
import proofs.«103581_j47218870452627_1_alg».proof.Proof.Gen.KernelIdeal.Points
import proofs.«103581_j47218870452627_1_alg».proof.Proof.Gen.KernelIdeal.Frame
import proofs.«103581_j47218870452627_1_alg».proof.Proof.Gen.ReferenceIdeal
import proofs.«103581_j47218870452627_1_alg».proof.Proof.Gen.Pre_finite_inputs
import proofs.«103581_j47218870452627_1_alg».proof.Proof.Gen.ReferenceIdeal.Run
import proofs.«103581_j47218870452627_1_alg».proof.Proof.Gen.ReferenceIdeal.Read
import proofs.«103581_j47218870452627_1_alg».proof.Proof.ValueRun
import proofs.«103581_j47218870452627_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's result stage of their argument arrays, and the arguments agree. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Chain.result m ρ c), (h c).2⟩)
    (Cert.KernelIdeal.ValueRun.run_named (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v53_eq]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
